-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S50000x1 : Shape := ⟨2, ![50000, 1]⟩
abbrev S256x64 : Shape := ⟨2, ![256, 64]⟩
abbrev S64 : Shape := ⟨1, ![64]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x256 .f32) (main_arg1 : FVec F S50000x1 .f32) (main_arg2 : FVec F S256x64 .f32) (main_arg3 : FVec F S64 .f32) (main_arg4 : IVec S800000 32) (main_arg5 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x256 : Shape := ⟨2, ![50000, 256]⟩
abbrev S50000x1 : Shape := ⟨2, ![50000, 1]⟩
abbrev S256x64 : Shape := ⟨2, ![256, 64]⟩
abbrev S64 : Shape := ⟨1, ![64]⟩
abbrev S800000 : Shape := ⟨1, ![800000]⟩
abbrev S50000x64 : Shape := ⟨2, ![50000, 64]⟩
abbrev S2000x256 : Shape := ⟨2, ![2000, 256]⟩
abbrev S2000x1 : Shape := ⟨2, ![2000, 1]⟩
abbrev S2000x64 : Shape := ⟨2, ![2000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 21
  | .vmem => 14
  | .smem => 0
  | _ => 0

abbrev bufTy : (tb : Table) → Fin (tcTables nBuf tb) → BufTy
  | .hbm, ⟨0, _⟩ => ⟨S50000x256, .f32⟩
  | .hbm, ⟨1, _⟩ => ⟨S50000x1, .f32⟩
  | .hbm, ⟨2, _⟩ => ⟨S256x64, .f32⟩
  | .hbm, ⟨3, _⟩ => ⟨S64, .f32⟩
  | .hbm, ⟨4, _⟩ => ⟨S800000, .i32⟩
  | .hbm, ⟨5, _⟩ => ⟨S800000, .i32⟩
  | .hbm, ⟨6, _⟩ => ⟨S50000x64, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S_, .f32⟩
  | .hbm, ⟨17, _⟩ => ⟨S50000x64, .f32⟩
  | .hbm, ⟨18, _⟩ => ⟨S800000x1, .i32⟩
  | .hbm, ⟨19, _⟩ => ⟨S50000x64, .f32⟩
  | .hbm, ⟨20, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S256x64, .f32⟩
  | .local _ .vmem, ⟨3, _⟩ => ⟨S2000x1, .f32⟩
  | .local _ .vmem, ⟨4, _⟩ => ⟨S2000x1, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S64, .f32⟩
  | .local _ .vmem, ⟨12, _⟩ => ⟨S2000x64, .f32⟩
  | .local _ .vmem, ⟨13, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S2000x1_S2000x1_0_0 : ∀ a, (![0, 0] : Fin 2 → Nat) a + S2000x1.size a ≤ S2000x1.size a
  h_S2000x1 : 0 < S2000x1.numel
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S2000x64_S2000x64 : S2000x64.ShapeCasts S2000x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  dot_S2000x256_S256x64_S2000x64_1_0_0_1_n_n_wf : DotDims.WF S2000x256 S256x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)

variable [Facts₀]

def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S50000x1 : Shape := ⟨2, ![50000, 1]⟩
abbrev S256x64 : Shape := ⟨2, ![256, 64]⟩
abbrev S64 : Shape := ⟨1, ![64]⟩
abbrev S800000 : Shape := ⟨1, ![800000]⟩
abbrev S50000x64 : Shape := ⟨2, ![50000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 30
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x1, .f32⟩
  | .hbm, ⟨2, _⟩ => ⟨S256x64, .f32⟩
  | .hbm, ⟨3, _⟩ => ⟨S64, .f32⟩
  | .hbm, ⟨4, _⟩ => ⟨S800000, .i32⟩
  | .hbm, ⟨5, _⟩ => ⟨S800000, .i32⟩
  | .hbm, ⟨6, _⟩ => ⟨S50000x64, .f32⟩
  | .hbm, ⟨7, _⟩ => ⟨S50000x64, .f32⟩
  | .hbm, ⟨8, _⟩ => ⟨S50000x64, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S50000x64, .f32⟩
  | .hbm, ⟨23, _⟩ => ⟨S50000x64, .f32⟩
  | .hbm, ⟨24, _⟩ => ⟨S1x64, .f32⟩
  | .hbm, ⟨25, _⟩ => ⟨S50000x64, .f32⟩
  | .hbm, ⟨26, _⟩ => ⟨S50000x64, .f32⟩
  | .hbm, ⟨27, _⟩ => ⟨S_, .f32⟩
  | .hbm, ⟨28, _⟩ => ⟨S50000x64, .f32⟩
  | .hbm, ⟨29, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S50000x1_S50000x64_0_1 : S50000x1.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LibKeepdims.lean ====
/-
  Two layout facts for a reduction kept as a column: a length-`a` vector cast to an `a × 1` column reads, at
  row `p`, the vector at `p`; and an `a × 1` column broadcast to `a × b` reads, at `(p, c)`, the column at row `p`.
  Together they say that a row statistic (a row's sum, maximum, …) broadcast back over its row is that statistic
  at every column. Stated over literal rank-1 and rank-2 shapes with indices written by coordinates.
-/
import Idealize.ShloMosaic.Lib.ValueIdx
import Idealize.ShloMosaic.Lib.Pipeline.Value

namespace Cert.LibKeepdims

open Idealize.ShloMosaic Idealize.ShloMosaic.ValueIdx

variable {α : Type}

/-- An `[a]` array cast to `[a, 1]` reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibKeepdims
-- ==== Proof.LibDenseRows.lean ====
/-
  Dense layers read along a row, for any number of rows and any widths. A dense layer sends a row x to x·W + b, and the
  rectifier takes the maximum with zero. A kernel spells the layer on a block of R rows as a block product into a zero
  accumulator plus the bias cast to one row and broadcast down the rows; a host program spells it on all R rows as a
  dot_general plus the bias broadcast in two steps. Read along row r, both are the row function of row r of the
  operand — at the extended reals, where the two products are the same sum over the contracted coordinate. The same
  for the rectifier in its two spellings (the maximum with a zero splat; the maximum with the zero word broadcast from
  a scalar), and for a change of float format, which changes no entry. The products are stated at the plain
  dimension record (rows × contraction times contraction × columns), to which a printed record of the same lists unfolds.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.LibDenseRows

open Idealize.ShloMosaic Idealize.ShloMosaic.ValueIdx

/-- The f32 word of zero read at the extended reals; kept as a word, since both spellings write the same one. -/
abbrev zeroW : EReal := Ideal.ofBits .f32 0x00000000#32

/-- A dense layer on one row: x ↦ x·W + b. -/
def dense {K N : ℕ} (x : Fin K → EReal) (W : Fin K → Fin N → EReal) (b : Fin N → EReal) : Fin N → EReal :=
  fun n => (∑ k : Fin K, x k * W k n) + b n

/-- The rectifier on one row. -/
def relu {N : ℕ} (x : Fin N → EReal) : Fin N → EReal := fun n => max (x n) zeroW

abbrev Sh2 (a b : ℕ) : Shape := ⟨2, ![a, b]⟩
abbrev Sh1 (a : ℕ) : Shape := ⟨1, ![a]⟩
abbrev Sh0 : Shape := ⟨0, ![]⟩

variable {R K N : ℕ} {φ₁ φ₂ : FTy}

/-- A block product into the zero accumulator, read at (a, b): the sum over the contracted coordinate. -/
theorem matmul_plain_zero_apply (prec : Option ContractPrecision) (A : FVec Ideal (Sh2 R K) φ₁) (B : FVec Ideal (Sh2 K N) φ₂)
    (a : Fin R) (b : Fin N) :
    matmul (DotDims.plain R K N) prec A B (constant (Sh2 R N) .f32 0x00000000#32) (ix2 a b) = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Pointwise operations read at an index -/

theorem exp_apply {s : Shape} {φ : FTy} (v : FVec Ideal s φ) (i : s.Idx) : exp v i = Ideal.exp (v i) := rfl
theorem hostExp_apply {s : Shape} {φ : FTy} (v : FVec Ideal s φ) (i : s.Idx) : Host.exp v i = Ideal.exp (v i) := rfl
theorem hostDivf_apply {s : Shape} {φ : FTy} (a b : FVec Ideal s φ) (i : s.Idx) : Host.divf a b i = Ideal.div (a i) (b i) := rfl

/-- A change of float format changes no entry. -/
theorem truncf_row {φ ψ : FTy} (Z : FVec Ideal (Sh2 R N) φ) (h : ψ.bits < φ.bits) (r : Fin R) :
    (fun n : Fin N => (truncf ψ Z h : FVec Ideal (Sh2 R N) ψ) (ix2 r n)) = fun n => Z (ix2 r n) := rfl

/-! ## A kernel's spelling of a layer, on a block of R rows -/

/-- The kernel's dense layer: the block times the weights into a zero accumulator, plus the bias as a broadcast row. -/
def kDense (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) : FVec Ideal (Sh2 R N) .f32 :=
  addf (matmul (DotDims.plain R K N) none X W (constant (Sh2 R N) .f32 0x00000000#32))
    (broadcastTo (Sh2 R N) (shapeCast (Sh2 1 N) b h1) h2)

theorem kDense_row (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) (r : Fin R) :
    (fun n : Fin N => kDense X W b h1 h2 (ix2 r n))
      = dense (fun k => X (ix2 r k)) (fun k n => W (ix2 k n)) (fun n => b (ix1 n)) := by
  funext n
  unfold kDense dense
  rw [addf_apply, matmul_plain_zero_apply, broadcastTo_1b_ab_apply, shapeCast_a_1a_apply]

/-- The kernel's rectifier: the maximum with a splat of the zero word. -/
def kRelu (Z : FVec Ideal (Sh2 R N) .f32) : FVec Ideal (Sh2 R N) .f32 :=
  maximumf Z (broadcast (Sh2 R N) (Scalar.ofBits .f32 0x00000000#32))

theorem kRelu_row (Z : FVec Ideal (Sh2 R N) .f32) (r : Fin R) :
    (fun n : Fin N => kRelu Z (ix2 r n)) = relu (fun n => Z (ix2 r n)) := rfl

/-! ## A host program's spelling of a layer, on all R rows -/

/-- The host's dense layer: a dot_general plus the bias made a one-row matrix and repeated over the rows. -/
def hDense (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) : FVec Ideal (Sh2 R N) .f32 :=
  addf (Host.dotGeneral (DotDims.plain R K N) none X W)
    (broadcastInDim (Sh2 R N) ![0, 1] h2 (broadcastInDim (Sh2 1 N) ![1] h1 b))

/-- A bias vector made a one-row matrix and then repeated over the rows reads, at (r, n), the bias at n. -/
theorem biasRows_apply {α : Type} (b : (Sh1 N).Idx → α)
    (h1 : (Sh1 N).BroadcastsInDim (Sh2 1 N) ![1]) (h2 : (Sh2 1 N).BroadcastsInDim (Sh2 R N) ![0, 1]) (r : Fin R) (n : Fin N) :
    broadcastInDim (Sh2 R N) ![0, 1] h2 (broadcastInDim (Sh2 1 N) ![1] h1 b) (ix2 r n) = b (ix1 n) := by
  rw [broadcastInDim_apply ![0, 1] h2 _ (ix2 r n) (ix2 (0 : Fin 1) n) (fun a => by
    match a with
    | ⟨0, _⟩ => rfl
    | ⟨1, _⟩ =>
      show n.val = if N = 1 then 0 else n.val
      split
      · have := n.isLt; omega
      · rfl)]
  rw [broadcastInDim_apply ![1] h1 b (ix2 (0 : Fin 1) n) (ix1 n) (fun a => by
    match a with
    | ⟨0, _⟩ =>
      show n.val = if N = 1 then 0 else n.val
      split
      · have := n.isLt; omega
      · rfl)]

theorem hDense_row (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) (r : Fin R) :
    (fun n : Fin N => hDense X W b h1 h2 (ix2 r n))
      = dense (fun k => X (ix2 r k)) (fun k n => W (ix2 k n)) (fun n => b (ix1 n)) := by
  funext n
  unfold hDense dense
  rw [addf_apply, StackMember.dotGeneral_plain_apply, biasRows_apply]

/-- The reference's rectifier: the maximum with the zero word broadcast from a scalar. -/
def hRelu (Z : FVec Ideal (Sh2 R N) .f32) (hb : Sh0.BroadcastsInDim (Sh2 R N) ![]) : FVec Ideal (Sh2 R N) .f32 :=
  maximumf Z (broadcastInDim (Sh2 R N) ![] hb (constant Sh0 .f32 0x00000000#32))

theorem hRelu_row (Z : FVec Ideal (Sh2 R N) .f32) (hb : Sh0.BroadcastsInDim (Sh2 R N) ![]) (r : Fin R) :
    (fun n : Fin N => hRelu Z hb (ix2 r n)) = relu (fun n => Z (ix2 r n)) := by
  funext n
  unfold hRelu relu
  rw [maximumf_apply, broadcastInDim_apply ![] hb _ (ix2 r n) ix0 (fun a => a.elim0)]
  rfl

end Cert.LibDenseRows
-- ==== Proof.Layer.lean ====
/-
  One graph-convolution layer over 50000 nodes, written index by index on the extended reals.

  Each node's 256 features are sent through a 256 × 64 weight matrix and scaled by the node's normalisation
  factor: entry (v, f) of `scaled` is (∑ₖ h[v, k] · w[k, f]) · norm[v]. Messages are then summed along the edges
  (that step is the same text in both programs and is kept opaque elsewhere). The layer ends by scaling the
  aggregated row of node v by norm[v] again, adding the bias of feature f, and taking the maximum with zero:
  entry (v, f) of `rectified` is max (agg[v, f] · norm[v] + bias[f]) 0.

  Nothing here distributes a product over a sum or cancels anything, so no finiteness of the inputs is needed:
  the two programs compute these very expressions, in this order.
-/
import Idealize.ShloMosaic.PureOps.Ideal
import Idealize.ShloMosaic.Lib.ValueIdx

noncomputable section

namespace Cert.GcnLayer

open Idealize.ShloMosaic Idealize.ShloMosaic.ValueIdx

/-- The f32 word of zero read at the extended reals; both programs write this same word, so it is never evaluated. -/
abbrev zeroW : EReal := Ideal.ofBits .f32 0x00000000#32

/-- Row `v` of an index into a 50000 × 64 array, as a number below 50000. -/
abbrev node (i : (⟨2, ![50000, 64]⟩ : Shape).Idx) : Fin 50000 := ⟨(i 0).val, (i 0).isLt⟩
/-- Column `f` of an index into a 50000 × 64 array, as a number below 64. -/
abbrev feat (i : (⟨2, ![50000, 64]⟩ : Shape).Idx) : Fin 64 := ⟨(i 1).val, (i 1).isLt⟩

/-- The projected and scaled node features: (∑ₖ h[v, k] · w[k, f]) · norm[v]. -/
def scaled (h : FVec Ideal ⟨2, ![50000, 256]⟩ .f32) (w : FVec Ideal ⟨2, ![256, 64]⟩ .f32)
    (nrm : FVec Ideal ⟨2, ![50000, 1]⟩ .f32) : FVec Ideal ⟨2, ![50000, 64]⟩ .f32 :=
  fun i => (∑ k : Fin 256, h (ix2 (node i) k) * w (ix2 k (feat i))) * nrm (ix2 (node i) (0 : Fin 1))

/-- The layer's last step on the aggregated messages: max (agg[v, f] · norm[v] + bias[f]) 0. -/
def rectified (agg : FVec Ideal ⟨2, ![50000, 64]⟩ .f32) (nrm : FVec Ideal ⟨2, ![50000, 1]⟩ .f32)
    (bias : FVec Ideal ⟨1, ![64]⟩ .f32) : FVec Ideal ⟨2, ![50000, 64]⟩ .f32 :=
  fun i => max (agg i * nrm (ix2 (node i) (0 : Fin 1)) + bias (ix1 (feat i))) zeroW

end Cert.GcnLayer

end
-- ==== Proof.Payloads.lean ====
/-
  What each kernel body stores, read at one entry of its 2000-row block.

  The first body multiplies its block of node features by the whole weight matrix (the products summed over the 256
  input features; the change of float format before the product changes no entry on the extended reals) and scales
  row p by that row's normalisation factor. The second body scales row p of its block of aggregated messages by the
  row's factor, adds the bias of column q, and takes the maximum with zero.
-/
import proofs.«125514_j14362370638268_1_alg».proof.Proof.Gen.KernelIdeal.Skeleton
import proofs.«125514_j14362370638268_1_alg».proof.Proof.LibKeepdims
import proofs.«125514_j14362370638268_1_alg».proof.Proof.LibDenseRows
import proofs.«125514_j14362370638268_1_alg».proof.Proof.Layer
import Idealize.ShloMosaic.Lib.ValueLayout

noncomputable section

namespace Cert.GcnLayer

open Cert.KernelIdeal Cert.KernelIdeal.Gen
open Idealize.ShloMosaic Idealize.ShloMosaic.ValueIdx

/-- The printed dimension record of the block product is the plain one: 2000 × 256 by 256 × 64. -/
theorem blockDot_eq : dot_S2000x256_S256x64_S2000x64_1_0_0_1_n_n = DotDims.plain 2000 256 64 := rfl

/-- Entry (p, q) of what the first body stores: (∑ₖ x[p, k] · w[k, q]) · n[p]. -/
theorem project_apply (x : FVec Ideal S2000x256 .f32) (w : FVec Ideal S256x64 .f32) (n : FVec Ideal S2000x1 .f32)
    (p : Fin 2000) (q : Fin 64) :
    k0_pay1 (F := Ideal) x w n (ix2 p q) = (∑ k : Fin 256, x (ix2 p k) * w (ix2 k q)) * n (ix2 p (0 : Fin 1)) := by
  unfold k0_pay1
  show mulf (F := Ideal) (matmul (F := Ideal) dot_S2000x256_S256x64_S2000x64_1_0_0_1_n_n none (truncf (F := Ideal) .bf16 x bitsLt_bf16_f32)
      (truncf (F := Ideal) .bf16 w bitsLt_bf16_f32) (constant (F := Ideal) S2000x64 .f32 0x00000000#32))
      (broadcastTo S2000x64 n broadcasts_S2000x1_S2000x64) (ix2 p q) = _
  rw [mulf_apply, blockDot_eq, Cert.LibDenseRows.matmul_plain_zero_apply, Cert.LibKeepdims.broadcastTo_a1_ab_apply]
  rfl

/-- Entry (p, q) of what the second body stores: max (a[p, q] · n[p] + b[q]) 0. -/
theorem finish_apply (a : FVec Ideal S2000x64 .f32) (n : FVec Ideal S2000x1 .f32) (b : FVec Ideal S64 .f32)
    (p : Fin 2000) (q : Fin 64) :
    k1_pay1 (F := Ideal) a n b (ix2 p q) = max (a (ix2 p q) * n (ix2 p (0 : Fin 1)) + b (ix1 q)) zeroW := by
  unfold k1_pay1
  show maximumf (F := Ideal) (addf (F := Ideal) (mulf (F := Ideal) (shapeCast S2000x64 a shapeCasts_S2000x64_S2000x64)
      (broadcastTo S2000x64 n broadcasts_S2000x1_S2000x64))
      (broadcastTo S2000x64 (shapeCast S1x64 b shapeCasts_S64_S1x64) broadcasts_S1x64_S2000x64))
      (broadcast S2000x64 (Scalar.ofBits (F := Ideal) .f32 0x00000000#32)) (ix2 p q) = _
  rw [maximumf_apply, addf_apply, mulf_apply, shapeCast_self, Cert.LibKeepdims.broadcastTo_a1_ab_apply, broadcastTo_1b_ab_apply,
    shapeCast_a_1a_apply]
  rfl

end Cert.GcnLayer

end
-- ==== Proof.ScaledRegion.lean ====
/-
  The first kernel region, read as a whole array. Grid point t works on rows 2000·t … 2000·t + 1999: it is handed
  those rows of the node features and of the normalisation column and the whole weight matrix, and writes those
  rows of its result. So entry (2000·t + p, q) of the result is the body's entry (p, q) on those blocks, which is
  entry (2000·t + p, q) of `scaled` of the whole arrays; the 25 points' row bands tile the 50000 rows, so the
  result array is `scaled` of the arrays the region found, whatever those are.
-/
import proofs.«125514_j14362370638268_1_alg».proof.Proof.Gen.KernelIdeal.Frame
import proofs.«125514_j14362370638268_1_alg».proof.Proof.Payloads
import Idealize.ShloMosaic.Lib.Pipeline.Value

set_option maxRecDepth 16384

noncomputable section

namespace Cert.GcnLayer.Scaled

open Cert.KernelIdeal Cert.KernelIdeal.Gen Cert.GcnLayer
open Idealize.ShloMosaic Idealize.ShloMosaic.TcCoe Idealize.ShloMosaic.ValueIdx
open Idealize.SL.Sem

variable (V : (c : Dev nD) → (b : Ref sig .tc) → Buf (Elt Ideal) ((c : Thread nD τ).loc b))

theorem zeros2 : (![0, 0] : Fin 2 → Nat) = fun _ => 0 := funext fun a => by fin_cases a <;> rfl

/-- The arrays the region finds, at their literal types. -/
abbrev featArr (c : Dev nD) : FVec Ideal S50000x256 .f32 := V c main_arg0
abbrev weightArr (c : Dev nD) : FVec Ideal S256x64 .f32 := V c main_arg2
abbrev normArr (c : Dev nD) : FVec Ideal S50000x1 .f32 := V c main_arg1

/-- Which block each window hands to point t: row band t of the features, of the normalisation column and of the
    result; the one block of the weights. Decided over the 25 points. -/
theorem bands : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is row band t of `scaled` of the arrays the region found. -/
theorem written (c : Dev nD) (t : Fin cfg0.N) :
    (dat0 V c).flushed 3 t
      = ((cfg0.win 3).blk t).view.read (Elt Ideal) (scaled (featArr V c) (weightArr V c) (normArr V c)) := by
  show (cfg0.win 3).cut (grid0.coords t) ((dat0 V c).after 3 t) = _
  rw [after0_3]
  unfold out0_3
  rw [View.canon_unit_zero zeros2]
  simp only [View.ld_unit_zero (S := S2000x256) zeros2, View.ld_unit_zero (S := S256x64) zeros2,
    View.ld_unit_zero (S := S2000x1) zeros2]
  obtain ⟨e00, e01, e10, e11, e20, e21, e30, e31⟩ := bands t
  funext j
  obtain ⟨p, q, rfl⟩ : ∃ (p : Fin 2000) (q : Fin 64), j = (ix2 p q : S2000x64.Idx) := ⟨j 0, j 1, eq_ix2 (n0 := 2000) (n1 := 64) j⟩
  refine (project_apply (iblk0 V c 0 t) (iblk0 V c 1 t) (iblk0 V c 2 t) p q).trans ?_
  show _ = scaled (featArr V c) (weightArr V c) (normArr V c) (((cfg0.win 3).blk t).view.emb (ix2 p q))
  unfold scaled
  have hx : ∀ k : Fin 256, iblk0 V c 0 t (ix2 p k)
      = featArr V c (ix2 (node (((cfg0.win 3).blk t).view.emb (ix2 p q))) k) := fun k => by
    show featArr V c (((cfg0.win 0).blk t).view.emb (ix2 p k)) = _
    refine congrArg (featArr V c) ?_
    funext a; apply Fin.ext
    match a with
    | ⟨0, _⟩ => show win0_0.index t (0 : Fin 2) * 2000 + 1 * p.val = win0_3.index t (0 : Fin 2) * 2000 + 1 * p.val; omega
    | ⟨1, _⟩ => show win0_0.index t (1 : Fin 2) * 256 + 1 * k.val = k.val; omega
  have hw : ∀ k : Fin 256, iblk0 V c 1 t (ix2 k q)
      = weightArr V c (ix2 k (feat (((cfg0.win 3).blk t).view.emb (ix2 p q)))) := fun k => by
    show weightArr V c (((cfg0.win 1).blk t).view.emb (ix2 k q)) = _
    refine congrArg (weightArr V c) ?_
    funext a; apply Fin.ext
    match a with
    | ⟨0, _⟩ => show win0_1.index t (0 : Fin 2) * 256 + 1 * k.val = k.val; omega
    | ⟨1, _⟩ => show win0_1.index t (1 : Fin 2) * 64 + 1 * q.val = win0_3.index t (1 : Fin 2) * 64 + 1 * q.val; omega
  have hn : iblk0 V c 2 t (ix2 p (0 : Fin 1))
      = normArr V c (ix2 (node (((cfg0.win 3).blk t).view.emb (ix2 p q))) (0 : Fin 1)) := by
    show normArr V c (((cfg0.win 2).blk t).view.emb (ix2 p (0 : Fin 1))) = _
    refine congrArg (normArr V c) ?_
    funext a; apply Fin.ext
    match a with
    | ⟨0, _⟩ => show win0_2.index t (0 : Fin 2) * 2000 + 1 * p.val = win0_3.index t (0 : Fin 2) * 2000 + 1 * p.val; omega
    | ⟨1, _⟩ => show win0_2.index t (1 : Fin 2) * 1 + 1 * 0 = 0; omega
  rw [hn]
  refine congrArg (· * normArr V c (ix2 (node (((cfg0.win 3).blk t).view.emb (ix2 p q))) (0 : Fin 1))) ?_
  exact Finset.sum_congr rfl fun k _ => by rw [hx k, hw k]

/-- An index of the result array lies in point t's block iff its row is in band t (and its column below 64). -/
theorem mem_band (t : Fin cfg0.N) (i : S50000x64.Idx) :
    i ∈ ((cfg0.win 3).blk t).view.set
      ↔ ∀ a : Fin 2, win0_3.index t a * S2000x64.size a ≤ (i a).val ∧ (i a).val < win0_3.index t a * S2000x64.size a + S2000x64.size a := by
  show i ∈ ((View.whole main_v0).slice (win0_3.rect t)).set ↔ _
  rw [View.set_slice_whole, Rect.mem_set_unit]
  exact Iff.rfl

/-- Every row lies in some point's band: row r in band r / 2000. -/
theorem covered (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  refine ⟨⟨(i 0).val / 2000, by show (i 0).val / 2000 < 25; omega⟩, flush0_3 _, ?_⟩
  rw [mem_band]
  obtain ⟨-, -, -, -, -, -, e30, e31⟩ := bands ⟨(i 0).val / 2000, by show (i 0).val / 2000 < 25; omega⟩
  intro a
  match a with
  | ⟨0, _⟩ =>
    show win0_3.index _ (0 : Fin 2) * 2000 ≤ (i 0).val ∧ (i 0).val < win0_3.index _ (0 : Fin 2) * 2000 + 2000
    rw [e30]; show (i 0).val / 2000 * 2000 ≤ (i 0).val ∧ (i 0).val < (i 0).val / 2000 * 2000 + 2000; omega
  | ⟨1, _⟩ =>
    show win0_3.index _ (1 : Fin 2) * 64 ≤ (i 1).val ∧ (i 1).val < win0_3.index _ (1 : Fin 2) * 64 + 64
    rw [e31]; omega

/-- The result array after the region's 25 points is `scaled` of the arrays the region found. -/
theorem result (c : Dev nD) :
    (dat0 V c).arrAt 3 cfg0.N = scaled (featArr V c) (weightArr V c) (normArr V c) :=
  (dat0 V c).arrAt_eq_of_cover 3 (scaled (featArr V c) (weightArr V c) (normArr V c)) (fun t _ => written V c t) covered

end Cert.GcnLayer.Scaled

end
-- ==== Proof.RectifiedRegion.lean ====
/-
  The second kernel region, read as a whole array. Grid point t works on rows 2000·t … 2000·t + 1999 of the
  aggregated messages and of the normalisation column, with the whole bias vector, and writes those rows of the
  result: entry (2000·t + p, q) is the body's entry (p, q) on those blocks, which is entry (2000·t + p, q) of
  `rectified` of the whole arrays. The 25 row bands tile the 50000 rows, so the result array is `rectified` of the
  arrays the region found, whatever those are.
-/
import proofs.«125514_j14362370638268_1_alg».proof.Proof.Gen.KernelIdeal.Frame
import proofs.«125514_j14362370638268_1_alg».proof.Proof.Payloads
import Idealize.ShloMosaic.Lib.Pipeline.Value

set_option maxRecDepth 16384

noncomputable section

namespace Cert.GcnLayer.Rectified

open Cert.KernelIdeal Cert.KernelIdeal.Gen Cert.GcnLayer
open Idealize.ShloMosaic Idealize.ShloMosaic.TcCoe Idealize.ShloMosaic.ValueIdx
open Idealize.SL.Sem

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The arrays the region finds, at their literal types. -/
abbrev aggArr (c : Dev nD) : FVec Ideal S50000x64 .f32 := V c main_v10
abbrev normArr (c : Dev nD) : FVec Ideal S50000x1 .f32 := V c main_arg1
abbrev biasArr (c : Dev nD) : FVec Ideal S64 .f32 := V c main_arg3

/-- Which block each window hands to point t: row band t of the aggregated messages, of the normalisation column and
    of the result; the one block of the bias. Decided over the 25 points. -/
theorem bands : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point t writes back is row band t of `rectified` of the arrays the region found. -/
theorem written (c : Dev nD) (t : Fin cfg1.N) :
    (dat1 V c).flushed 3 t
      = ((cfg1.win 3).blk t).view.read (Elt Ideal) (rectified (aggArr V c) (normArr V c) (biasArr V c)) := by
  show (cfg1.win 3).cut (grid1.coords t) ((dat1 V c).after 3 t) = _
  rw [after1_3]
  unfold out1_3
  rw [View.canon_unit_zero zeros2]
  simp only [View.ld_unit_zero (S := S2000x64) zeros2, View.ld_unit_zero (S := S2000x1) zeros2,
    View.ld_unit_zero (S := S64) zeros1]
  obtain ⟨e00, e01, e10, e11, e20, e30, e31⟩ := bands t
  funext j
  obtain ⟨p, q, rfl⟩ : ∃ (p : Fin 2000) (q : Fin 64), j = (ix2 p q : S2000x64.Idx) := ⟨j 0, j 1, eq_ix2 (n0 := 2000) (n1 := 64) j⟩
  refine (finish_apply (iblk1 V c 0 t) (iblk1 V c 1 t) (iblk1 V c 2 t) p q).trans ?_
  show _ = rectified (aggArr V c) (normArr V c) (biasArr V c) (((cfg1.win 3).blk t).view.emb (ix2 p q))
  unfold rectified
  have ha : iblk1 V c 0 t (ix2 p q) = aggArr V c (((cfg1.win 3).blk t).view.emb (ix2 p q)) := by
    show aggArr V c (((cfg1.win 0).blk t).view.emb (ix2 p q)) = _
    refine congrArg (aggArr V c) ?_
    funext a; apply Fin.ext
    match a with
    | ⟨0, _⟩ => show win1_0.index t (0 : Fin 2) * 2000 + 1 * p.val = win1_3.index t (0 : Fin 2) * 2000 + 1 * p.val; omega
    | ⟨1, _⟩ => show win1_0.index t (1 : Fin 2) * 64 + 1 * q.val = win1_3.index t (1 : Fin 2) * 64 + 1 * q.val; omega
  have hn : iblk1 V c 1 t (ix2 p (0 : Fin 1))
      = normArr V c (ix2 (node (((cfg1.win 3).blk t).view.emb (ix2 p q))) (0 : Fin 1)) := by
    show normArr V c (((cfg1.win 1).blk t).view.emb (ix2 p (0 : Fin 1))) = _
    refine congrArg (normArr V c) ?_
    funext a; apply Fin.ext
    match a with
    | ⟨0, _⟩ => show win1_1.index t (0 : Fin 2) * 2000 + 1 * p.val = win1_3.index t (0 : Fin 2) * 2000 + 1 * p.val; omega
    | ⟨1, _⟩ => show win1_1.index t (1 : Fin 2) * 1 + 1 * 0 = 0; omega
  have hb : iblk1 V c 2 t (ix1 q) = biasArr V c (ix1 (feat (((cfg1.win 3).blk t).view.emb (ix2 p q)))) := by
    show biasArr V c (((cfg1.win 2).blk t).view.emb (ix1 q)) = _
    refine congrArg (biasArr V c) ?_
    funext a; apply Fin.ext
    match a with
    | ⟨0, _⟩ => show win1_2.index t (0 : Fin 1) * 64 + 1 * q.val = win1_3.index t (1 : Fin 2) * 64 + 1 * q.val; omega
  rw [ha, hn, hb]

/-- An index of the result array lies in point t's block iff its row is in band t (and its column below 64). -/
theorem mem_band (t : Fin cfg1.N) (i : S50000x64.Idx) :
    i ∈ ((cfg1.win 3).blk t).view.set
      ↔ ∀ a : Fin 2, win1_3.index t a * S2000x64.size a ≤ (i a).val ∧ (i a).val < win1_3.index t a * S2000x64.size a + S2000x64.size a := by
  show i ∈ ((View.whole main_v11).slice (win1_3.rect t)).set ↔ _
  rw [View.set_slice_whole, Rect.mem_set_unit]
  exact Iff.rfl

/-- Every row lies in some point's band: row r in band r / 2000. -/
theorem covered (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  refine ⟨⟨(i 0).val / 2000, by show (i 0).val / 2000 < 25; omega⟩, flush1_3 _, ?_⟩
  rw [mem_band]
  obtain ⟨-, -, -, -, -, e30, e31⟩ := bands ⟨(i 0).val / 2000, by show (i 0).val / 2000 < 25; omega⟩
  intro a
  match a with
  | ⟨0, _⟩ =>
    show win1_3.index _ (0 : Fin 2) * 2000 ≤ (i 0).val ∧ (i 0).val < win1_3.index _ (0 : Fin 2) * 2000 + 2000
    rw [e30]; show (i 0).val / 2000 * 2000 ≤ (i 0).val ∧ (i 0).val < (i 0).val / 2000 * 2000 + 2000; omega
  | ⟨1, _⟩ =>
    show win1_3.index _ (1 : Fin 2) * 64 ≤ (i 1).val ∧ (i 1).val < win1_3.index _ (1 : Fin 2) * 64 + 64
    rw [e31]; omega

/-- The result array after the region's 25 points is `rectified` of the arrays the region found. -/
theorem result (c : Dev nD) :
    (dat1 V c).arrAt 3 cfg1.N = rectified (aggArr V c) (normArr V c) (biasArr V c) :=
  (dat1 V c).arrAt_eq_of_cover 3 (rectified (aggArr V c) (normArr V c) (biasArr V c)) (fun t _ => written V c t) covered

end Cert.GcnLayer.Rectified

end
-- ==== Proof.Aggregate.lean ====
/-
  Summing the messages along the edges, and the whole layer.

  Between the two dense stages both programs do the same thing to the scaled features: negative source indices
  are wrapped once by the node count, row src[e] of the scaled features is gathered for every edge e, and the
  gathered rows are added into row dst[e] of an array of zeros. The step is the same text in the kernel's program
  and in the reference, so it is kept as one opaque function of the scaled features and the two index arrays;
  nothing about gathers or scatters is ever opened.
-/
import proofs.«125514_j14362370638268_1_alg».proof.KernelIdeal
import proofs.«125514_j14362370638268_1_alg».proof.Proof.Gen.KernelIdeal
import proofs.«125514_j14362370638268_1_alg».proof.Proof.Layer

noncomputable section

namespace Cert.GcnLayer

open Cert.KernelIdeal Cert.KernelIdeal.Facts₀
open Idealize.ShloMosaic

/-- The messages summed along the edges: row dst[e] of the result collects row src[e] of `hw` (a negative src[e]
    wrapped by 50000 first), starting from zeros. -/
def aggregate (hw : FVec Ideal S50000x64 .f32) (src dst : IVec S800000 32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 hw
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The layer: project and scale, sum along the edges, scale again, add the bias, rectify. -/
def layer (h : FVec Ideal S50000x256 .f32) (nrm : FVec Ideal S50000x1 .f32) (w : FVec Ideal S256x64 .f32)
    (bias : FVec Ideal S64 .f32) (src dst : IVec S800000 32) : FVec Ideal S50000x64 .f32 :=
  rectified (aggregate (scaled h w nrm) src dst) nrm bias

end Cert.GcnLayer

end
-- ==== Proof.KernelValue.lean ====
/-
  The kernel program's result array is the layer of its arguments.

  Reading the run backwards: the result is what the second region writes, `rectified` of the arrays that region
  finds; of those, the aggregated messages are what the host stretch between the regions leaves, `aggregate` of the
  first region's result and the two index arguments; the first region's result is `scaled` of the arrays it finds,
  which are the arguments as launched; and the normalisation column and the bias reach the second region as launched,
  since nothing in between writes them.
-/
import proofs.«125514_j14362370638268_1_alg».proof.Proof.KernelRun
import proofs.«125514_j14362370638268_1_alg».proof.Proof.ScaledRegion
import proofs.«125514_j14362370638268_1_alg».proof.Proof.RectifiedRegion
import proofs.«125514_j14362370638268_1_alg».proof.Proof.Aggregate
import Idealize.ShloMosaic.Lib.StableHlo.Run

set_option maxRecDepth 16384

noncomputable section

namespace Cert.GcnLayer.Kernel

open Cert.KernelIdeal Cert.KernelIdeal.Gen Cert.GcnLayer
open Idealize.ShloMosaic Idealize.ShloMosaic.TcCoe Idealize.ShloMosaic.StableHlo
open Idealize.SL.Sem

variable (m : (ℓ : Loc nD τ sig) → Buf (Elt Ideal) ℓ) (ρ : Dev nD → PrngReg)

/-- The first region's result, as the host stretch finds it: `scaled` of the launched arguments. -/
theorem scaled_at_exit (c : Dev nD) :
    (W1 m ρ c (Proc.devRef .tc main_v0) : FVec Ideal S50000x64 .f32)
      = scaled (m ((c.tc : Thread nD τ).loc main_arg0)) (m ((c.tc : Thread nD τ).loc main_arg2)) (m ((c.tc : Thread nD τ).loc main_arg1)) :=
  (W1_arr m ρ c 3).trans (Scaled.result (V0 m ρ) c)

/-- The index arguments and the bias are not among the first region's arrays: they pass it untouched. -/
theorem src_at_exit (c : Dev nD) : W1 m ρ c (Proc.devRef .tc main_arg4) = m ((c.tc : Thread nD τ).loc main_arg4) :=
  W1_of_ne m ρ c main_arg4 (by decide)
theorem dst_at_exit (c : Dev nD) : W1 m ρ c (Proc.devRef .tc main_arg5) = m ((c.tc : Thread nD τ).loc main_arg5) :=
  W1_of_ne m ρ c main_arg5 (by decide)
theorem bias_at_exit (c : Dev nD) : W1 m ρ c (Proc.devRef .tc main_arg3) = m ((c.tc : Thread nD τ).loc main_arg3) :=
  W1_of_ne m ρ c main_arg3 (by decide)
/-- The normalisation column is an input of the first region, which leaves its inputs as it found them. -/
theorem norm_at_exit (c : Dev nD) : W1 m ρ c (Proc.devRef .tc main_arg1) = m ((c.tc : Thread nD τ).loc main_arg1) :=
  (W1_arr m ρ c 2).trans (((dat0 (V0 m ρ) c).arrAt_in 2 rfl _).trans (A_eq0 (V0 m ρ) c 2))

/-- What the host stretch leaves for the second region to read as aggregated messages. -/
theorem agg_at_entry (c : Dev nD) :
    (V2 m ρ c main_v10 : FVec Ideal S50000x64 .f32)
      = aggregate (W1 m ρ c (Proc.devRef .tc main_v0)) (W1 m ρ c (Proc.devRef .tc main_arg4)) (W1 m ρ c (Proc.devRef .tc main_arg5)) := by
  show StableHlo.after hostOps1 (W1 m ρ c) (Proc.devRef .tc main_v10) = _
  after_results
  rfl

/-- The host stretch writes neither the normalisation column nor the bias. -/
theorem norm_at_entry (c : Dev nD) : V2 m ρ c main_arg1 = W1 m ρ c (Proc.devRef .tc main_arg1) := by
  show StableHlo.after hostOps1 (W1 m ρ c) (Proc.devRef .tc main_arg1) = _
  after_results
theorem bias_at_entry (c : Dev nD) : V2 m ρ c main_arg3 = W1 m ρ c (Proc.devRef .tc main_arg3) := by
  show StableHlo.after hostOps1 (W1 m ρ c) (Proc.devRef .tc main_arg3) = _
  after_results

/-- The result array at the end of the run is the layer of the launched arguments. -/
theorem result (c : Dev nD) :
    (W3 m ρ c (Proc.devRef .tc main_v11) : FVec Ideal S50000x64 .f32)
      = layer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  refine ((W3_arr m ρ c 3).trans (Rectified.result (V2 m ρ) c)).trans ?_
  unfold layer
  show rectified (V2 m ρ c main_v10) (V2 m ρ c main_arg1) (V2 m ρ c main_arg3) = _
  rw [agg_at_entry m ρ c, norm_at_entry m ρ c, bias_at_entry m ρ c, scaled_at_exit m ρ c, src_at_exit m ρ c, dst_at_exit m ρ c,
    norm_at_exit m ρ c, bias_at_exit m ρ c]

/-- The kernel program's run, with the result array named by the layer. -/
theorem run : θ_run defs (onTc (τ := τ) (main (F := Ideal))) ⟨m, fun _ => 0, ρ⟩ (fun r => ∀ c : Dev nD,
      r.2.mem ((c.tc : Thread nD τ).loc main_v11)
        = layer (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (Cert.KernelIdeal.Named.run m ρ)

end Cert.GcnLayer.Kernel

end
-- ==== Proof.ReferenceValue.lean ====
/-
  The reference program's result is the layer of its arguments.

  Its operations, read one at a time: a matrix product with the weights (the sum over the 256 input features), the
  normalisation column repeated along the 64 output features and multiplied in — that is `scaled` —; the index
  wrapping, the gather and the scatter-add, which are `aggregate` word for word; then the column repeated and
  multiplied in again, the bias made a row and repeated down the nodes and added, and the maximum with a zero
  splat — that is `rectified`.
-/
import proofs.«125514_j14362370638268_1_alg».proof.Proof.Gen.ReferenceIdeal.Read
import proofs.«125514_j14362370638268_1_alg».proof.Proof.Aggregate

noncomputable section

namespace Cert.GcnLayer.Reference

open Cert.ReferenceIdeal Cert.ReferenceIdeal.Read Cert.GcnLayer
open Idealize.ShloMosaic Idealize.ShloMosaic.ValueIdx

variable (x0 : FVec Ideal S50000x256 .f32) (x1 : FVec Ideal S50000x1 .f32) (x2 : FVec Ideal S256x64 .f32)
  (x3 : FVec Ideal S64 .f32) (x4 x5 : IVec S800000 32)

/-- The product's left operand is read at (node, k), its right operand at (k, feature). -/
theorem lidx_eq (i : S50000x64.Idx) (k : Fin 256) : lidx_main_v0 i k = ix2 (node i) k :=
  funext fun a => by match a with | ⟨0, _⟩ => rfl | ⟨1, _⟩ => rfl
theorem ridx_eq (i : S50000x64.Idx) (k : Fin 256) : ridx_main_v0 i k = ix2 k (feat i) :=
  funext fun a => by match a with | ⟨0, _⟩ => rfl | ⟨1, _⟩ => rfl
/-- The repeated normalisation column is read at (node, 0); the repeated bias row at the feature. -/
theorem col_eq (i : S50000x64.Idx) : idx_main_v1 i = ix2 (node i) (0 : Fin 1) :=
  funext fun a => by match a with | ⟨0, _⟩ => rfl | ⟨1, _⟩ => rfl
theorem col_eq' (i : S50000x64.Idx) : idx_main_v13 i = ix2 (node i) (0 : Fin 1) :=
  funext fun a => by match a with | ⟨0, _⟩ => rfl | ⟨1, _⟩ => rfl
theorem row_eq (i : S50000x64.Idx) : idx_main_v15 (idx_main_v16 i) = ix1 (feat i) :=
  funext fun a => by match a with | ⟨0, _⟩ => rfl

/-- The first three operations compute `scaled`. -/
theorem scaled_eq : val_main_v2 (F := Ideal) x0 x1 x2 = scaled x0 x2 x1 := by
  funext i
  rw [val_main_v2_apply, val_main_v0_apply, val_main_v1_apply]
  unfold scaled
  simp only [lidx_eq, ridx_eq, col_eq]
  rfl

/-- The operations from the index wrapping to the scatter-add are `aggregate`, word for word. -/
theorem aggregate_eq : val_main_v12 (F := Ideal) x0 x1 x2 x4 x5 = aggregate (val_main_v2 (F := Ideal) x0 x1 x2) x4 x5 := rfl

/-- The last operations compute `rectified` of what the scatter-add left. -/
theorem rectified_eq :
    val_main_v18 (F := Ideal) x0 x1 x2 x3 x4 x5 = rectified (val_main_v12 (F := Ideal) x0 x1 x2 x4 x5) x1 x3 := by
  funext i
  rw [val_main_v18_apply, val_main_v17_apply, val_main_v14_apply, val_main_v13_apply, val_main_v16_apply, val_main_v15_apply,
    val_main_call0_v0_apply, val_main_call0_cst_apply]
  unfold rectified
  rw [col_eq', row_eq]
  rfl

/-- The reference's result is the layer of its arguments. -/
theorem result : val_main_v18 (F := Ideal) x0 x1 x2 x3 x4 x5 = layer x0 x1 x2 x3 x4 x5 := by
  rw [rectified_eq, aggregate_eq, scaled_eq]
  rfl

end Cert.GcnLayer.Reference

end
-- ==== Proof.lean ====
/-
  One graph-convolution layer, a Pallas kernel program against its jnp reference, equal over the extended reals.

  Both programs compute, for node v and output feature f,
      max ( agg[v, f] · norm[v] + bias[f] ) 0,
  where agg sums, over the edges e with dst[e] = v, row src[e] of (h · W) scaled row by row by norm. The kernel
  program does the projection and first scaling in one pipelined region over 25 bands of 2000 nodes (its change of
  float format before the product changes nothing on the extended reals, and its block product into a zero
  accumulator is the same sum over the 256 input features as the reference's product), leaves the gather and the
  scatter-add to the same host operations the reference uses, and does the second scaling, the bias and the
  rectifier in a second region over the same 25 bands. So each side's result is the one function `layer` of the
  arguments (Proof/Layer.lean, Proof/Aggregate.lean): the kernel's by reading each region's write-backs as a whole
  array (Proof/ScaledRegion.lean, Proof/RectifiedRegion.lean, Proof/KernelValue.lean), the reference's by reading its
  operations one at a time (Proof/ReferenceValue.lean). No step distributes or cancels, so the finiteness of the
  inputs is never used. The idealization rewrote no operation, so there is nothing to preserve.
-/
import proofs.«125514_j14362370638268_1_alg».proof.Defs
import proofs.«125514_j14362370638268_1_alg».proof.Proof.Gen.Kernel
import proofs.«125514_j14362370638268_1_alg».proof.Proof.Gen.Kernel.Skeleton
import proofs.«125514_j14362370638268_1_alg».proof.Proof.Gen.Kernel.Launch
import proofs.«125514_j14362370638268_1_alg».proof.Proof.Gen.Kernel.Points
import proofs.«125514_j14362370638268_1_alg».proof.Proof.Gen.Kernel.Frame
import proofs.«125514_j14362370638268_1_alg».proof.Proof.Gen.KernelIdeal
import proofs.«125514_j14362370638268_1_alg».proof.Proof.Gen.KernelIdeal.Skeleton
import proofs.«125514_j14362370638268_1_alg».proof.Proof.Gen.KernelIdeal.Launch
import proofs.«125514_j14362370638268_1_alg».proof.Proof.Gen.KernelIdeal.Points
import proofs.«125514_j14362370638268_1_alg».proof.Proof.Gen.KernelIdeal.Frame
import proofs.«125514_j14362370638268_1_alg».proof.Proof.Gen.ReferenceIdeal
import proofs.«125514_j14362370638268_1_alg».proof.Proof.Gen.ReferenceIdeal.Run
import proofs.«125514_j14362370638268_1_alg».proof.Proof.Gen.ReferenceIdeal.Read
import proofs.«125514_j14362370638268_1_alg».proof.Proof.Gen.Pre_finite_inputs
import proofs.«125514_j14362370638268_1_alg».proof.Proof.KernelValue
import proofs.«125514_j14362370638268_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments, both programs end with the layer of those arguments. -/
theorem algebraic : Cert.algebraic_KernelIdeal_ReferenceIdeal := by
  intro m ρ m' ρ' _ hagree
  refine ⟨_, Cert.GcnLayer.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq _ _ _ _ _ _).trans ((Cert.GcnLayer.Reference.result _ _ _ _ _ _).trans ?_)
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
